-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S64x128 : Shape := ⟨2, ![64, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S1000000x128 .f32) (main_arg1 : FVec F S64x128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S1000000x128 : Shape := ⟨2, ![1000000, 128]⟩
abbrev S64x128 : Shape := ⟨2, ![64, 128]⟩
abbrev S10000x128 : Shape := ⟨2, ![10000, 128]⟩
abbrev S128x64 : Shape := ⟨2, ![128, 64]⟩
abbrev S10000x64 : Shape := ⟨2, ![10000, 64]⟩

abbrev nBuf : Space → Nat
  | .hbm => 3
  | .vmem => 5
  | .smem => 0
  | _ => 0

abbrev bufTy : (tb : Table) → Fin (tcTables nBuf tb) → BufTy
  | .hbm, ⟨0, _⟩ => ⟨S1000000x128, .f32⟩
  | .hbm, ⟨1, _⟩ => ⟨S64x128, .f32⟩
  | .hbm, ⟨2, _⟩ => ⟨S1000000x128, .f32⟩
  | .local _ .vmem, ⟨0, _⟩ => ⟨S10000x128, .f32⟩
  | .local _ .vmem, ⟨1, _⟩ => ⟨S10000x128, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  dot_S10000x128_S128x64_S10000x64_1_0_0_1_n_n_wf : DotDims.WF S10000x128 S128x64 S10000x64 [1] [0] [0] [1] [] []
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1000000x128.size a
  hwx0_0 : ∀ i : grid0.Coords, EltTy.bits .f32 = 32 ∨ (Rect.block (s := S1000000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S1000000x128.size a
  hwx0_2 : ∀ i : grid0.Coords, EltTy.bits .f32 = 32 ∨ (Rect.block (s := S1000000x128) S10000x128.size (cc0_transform_2 i) (hinb0_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S64x128 : Shape := ⟨2, ![64, 128]⟩
abbrev S1000000x64 : Shape := ⟨2, ![1000000, 64]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S64x128, .f32⟩
  | .hbm, ⟨2, _⟩ => ⟨S1000000x64, .f32⟩
  | .hbm, ⟨3, _⟩ => ⟨S1000000x64, .f32⟩
  | .hbm, ⟨4, _⟩ => ⟨S1000000x64, .f32⟩
  | .hbm, ⟨5, _⟩ => ⟨S_, .f32⟩
  | .hbm, ⟨6, _⟩ => ⟨S1000000x64, .f32⟩
  | .hbm, ⟨7, _⟩ => ⟨S1000000x64, .f32⟩
  | .hbm, ⟨8, _⟩ => ⟨S_, .f32⟩
  | .hbm, ⟨9, _⟩ => ⟨S1000000x64, .f32⟩
  | .hbm, ⟨10, _⟩ => ⟨S1000000x64, .f32⟩
  | .hbm, ⟨11, _⟩ => ⟨S_, .f32⟩
  | .hbm, ⟨12, _⟩ => ⟨S1000000x64, .f32⟩
  | .hbm, ⟨13, _⟩ => ⟨S1000000x64, .i1⟩
  | .hbm, ⟨14, _⟩ => ⟨S_, .f32⟩
  | .hbm, ⟨15, _⟩ => ⟨S_, .f32⟩
  | .hbm, ⟨16, _⟩ => ⟨S1000000x64, .f32⟩
  | .hbm, ⟨17, _⟩ => ⟨S1000000x64, .f32⟩
  | .hbm, ⟨18, _⟩ => ⟨S1000000x128, .f32⟩
  | .hbm, ⟨19, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S1000000x64 : S_.BroadcastsInDim S1000000x64 (![] : Fin 0 → Fin S1000000x64.rank)
  dot_S1000000x128_S64x128_S1000000x64_1_1_0_0_n_n_wf : DotDims.WF S1000000x128 S64x128 S1000000x64 [1] [1] [0] [0] [] []
  dot_S1000000x64_S64x128_S1000000x128_1_0_0_1_n_n_wf : DotDims.WF S1000000x64 S64x128 S1000000x128 [1] [0] [0] [1] [] []

variable [Facts₀]

def dot_S1000000x128_S64x128_S1000000x64_1_1_0_0_n_n : DotDims S1000000x128 S64x128 S1000000x64 where
  lhsContracting := [1]
  rhsContracting := [1]
  lhsNonContracting := [0]
  rhsNonContracting := [0]
  lhsBatch := []
  rhsBatch := []
  wf := dot_S1000000x128_S64x128_S1000000x64_1_1_0_0_n_n_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf

class Facts : Prop extends Facts₀ where

variable [Facts]
-- ==== Proof.Mix.lean ====
/-
  The function both programs compute, over the extended reals.

  `x` is an array of `R` rows of 128 numbers and `tok` a table of 64 rows of 128 numbers. Row `n`'s SCORE against
  token `t` is the inner product `∑ e, x n e · tok t e`. Its WEIGHT is the logistic function of the score, replaced by
  zero where it lies below the threshold — the f32 number nearest 0.2, the same word in both programs, so it is never
  evaluated. The result at `(n, d)` is `x n d + ∑ t, weight (score n t) · tok t d`.

  The result's row `n` depends on row `n` of `x` only (and on `tok`): a tile of rows is computed from that tile alone
  (`mixAt_of_row`). This is the whole reason the tiled program and the untiled one agree; no law of arithmetic beyond
  re-indexing a finite sum is used, so no finiteness of the inputs is needed.
-/
import Idealize.ShloMosaic.Lib.ValueIdx
import Idealize.ShloMosaic.Lib.IdealHost
import Idealize.ShloMosaic.PureOps.Ideal.Laws

noncomputable section

namespace Cert.Mix

open Idealize.ShloMosaic Idealize.ShloMosaic.ValueIdx

/-- The weight of a score: its logistic value, or zero where that value is below the threshold. -/
def weight (s : EReal) : EReal :=
  Scalar.select (FloatOps.cmpf (F := Ideal) (φ := .f32) .olt (Ideal.logistic s) (Ideal.ofBits .f32 0x3E4CCCCD#32))
    (Ideal.ofBits .f32 0x00000000#32) (Ideal.logistic s)

/-- Spelt with a negation, an exponential, a sum with one and a quotient of one, `1 / (1 + e^(-s))` IS the logistic
    function: that expression is its definition on the extended reals, and the word `0x3F800000` is the number one. -/
theorem logistic_spelled (s : EReal) :
    FloatOps.hostDivf (F := Ideal) (φ := .f32) (FloatOps.ofBits .f32 0x3F800000#32)
      (FloatOps.addf (FloatOps.ofBits .f32 0x3F800000#32) (FloatOps.hostUnary .exp (FloatOps.hostNegf s)))
      = Ideal.logistic s := by
  show Ideal.div (Ideal.ofBits .f32 0x3F800000#32) (Ideal.ofBits .f32 0x3F800000#32 + Ideal.exp (-s)) = _
  rw [Ideal.ofBits_one_f32]
  rfl

/-- The weight, with the logistic function spelt out as above and the literals as the words a program prints. -/
theorem weight_spelled (s : EReal) :
    Scalar.select
      (FloatOps.cmpf (F := Ideal) (φ := .f32) .olt
        (FloatOps.hostDivf (FloatOps.ofBits .f32 0x3F800000#32)
          (FloatOps.addf (FloatOps.ofBits .f32 0x3F800000#32) (FloatOps.hostUnary .exp (FloatOps.hostNegf s))))
        (FloatOps.ofBits .f32 0x3E4CCCCD#32))
      (FloatOps.ofBits (F := Ideal) .f32 0x00000000#32)
      (FloatOps.hostDivf (F := Ideal) (φ := .f32) (FloatOps.ofBits .f32 0x3F800000#32)
        (FloatOps.addf (FloatOps.ofBits .f32 0x3F800000#32) (FloatOps.hostUnary .exp (FloatOps.hostNegf s))))
      = weight s := by
  rw [logistic_spelled]
  rfl

/-- The result at row `n`, column `d`. -/
def mixAt {R : ℕ} (x : (⟨2, ![R, 128]⟩ : Shape).Idx → EReal) (tok : (⟨2, ![64, 128]⟩ : Shape).Idx → EReal)
    (n : Fin R) (d : Fin 128) : EReal :=
  x (ix2 n d) + ∑ t : Fin 64, weight (∑ e : Fin 128, x (ix2 n e) * tok (ix2 t e)) * tok (ix2 t d)

/-- Row-locality: two arrays that agree on one row each give the same result on that row. -/
theorem mixAt_of_row {R R' : ℕ} (x : (⟨2, ![R, 128]⟩ : Shape).Idx → EReal) (x' : (⟨2, ![R', 128]⟩ : Shape).Idx → EReal)
    (tok : (⟨2, ![64, 128]⟩ : Shape).Idx → EReal) (n : Fin R) (n' : Fin R')
    (h : ∀ e : Fin 128, x (ix2 n e) = x' (ix2 n' e)) (d : Fin 128) :
    mixAt x tok n d = mixAt x' tok n' d := by
  unfold mixAt
  simp only [h]

end Cert.Mix

end
-- ==== Proof.BodyMix.lean ====
/-
  The kernel body's stored value, on one tile of 10000 rows, is `Mix.mixAt` of the tile and the token table.

  The body multiplies the tile by the transposed table (the scores: the transposed table at `(e, t)` is the table at
  `(t, e)`), applies the logistic function, zeroes what lies below the threshold, multiplies the weights by the table and
  adds the tile. A matrix product into a zero accumulator, read at an index, is the finite sum over its one contracted
  coordinate of the operands' products; the operands' indices at output `(p, ·)` and contracted coordinate `k` are
  `(p, k)` on the left and `(k, ·)` on the right.
-/
import proofs.«177166_j76192719831252_1_alg».proof.Proof.Gen.KernelIdeal.Skeleton
import proofs.«177166_j76192719831252_1_alg».proof.Proof.Mix
import Idealize.ShloMosaic.Lib.ValueIdx
import Idealize.ShloMosaic.Lib.ValueLayout
import Idealize.ShloMosaic.PureOps.Ideal.Laws

noncomputable section

namespace Cert.KernelIdeal.BodyMix

open Cert.KernelIdeal Cert.KernelIdeal.Gen
open Idealize.ShloMosaic Idealize.ShloMosaic.ValueIdx Cert.Mix

/-! ## The two products' operand indices, axis by axis -/

theorem score_lhs_0 (i : S10000x64.Idx) (k : dot_S10000x128_S128x64_S10000x64_1_0_0_1_n_n.contr.Idx) :
    (dot_S10000x128_S128x64_S10000x64_1_0_0_1_n_n.lhsIdx i k 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem score_lhs_1 (i : S10000x64.Idx) (k : dot_S10000x128_S128x64_S10000x64_1_0_0_1_n_n.contr.Idx) :
    (dot_S10000x128_S128x64_S10000x64_1_0_0_1_n_n.lhsIdx i k 1).val = (k ⟨0, by decide⟩).val :=
  dot_S10000x128_S128x64_S10000x64_1_0_0_1_n_n.lhsIdx_val_of_single rfl i k
theorem score_rhs_0 (i : S10000x64.Idx) (k : dot_S10000x128_S128x64_S10000x64_1_0_0_1_n_n.contr.Idx) :
    (dot_S10000x128_S128x64_S10000x64_1_0_0_1_n_n.rhsIdx i k 0).val = (k ⟨0, by decide⟩).val :=
  dot_S10000x128_S128x64_S10000x64_1_0_0_1_n_n.rhsIdx_val_of_single rfl i k
theorem score_rhs_1 (i : S10000x64.Idx) (k : dot_S10000x128_S128x64_S10000x64_1_0_0_1_n_n.contr.Idx) :
    (dot_S10000x128_S128x64_S10000x64_1_0_0_1_n_n.rhsIdx i k 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem blend_lhs_0 (i : S10000x128.Idx) (k : dot_S10000x64_S64x128_S10000x128_1_0_0_1_n_n.contr.Idx) :
    (dot_S10000x64_S64x128_S10000x128_1_0_0_1_n_n.lhsIdx i k 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem blend_lhs_1 (i : S10000x128.Idx) (k : dot_S10000x64_S64x128_S10000x128_1_0_0_1_n_n.contr.Idx) :
    (dot_S10000x64_S64x128_S10000x128_1_0_0_1_n_n.lhsIdx i k 1).val = (k ⟨0, by decide⟩).val :=
  dot_S10000x64_S64x128_S10000x128_1_0_0_1_n_n.lhsIdx_val_of_single rfl i k
theorem blend_rhs_0 (i : S10000x128.Idx) (k : dot_S10000x64_S64x128_S10000x128_1_0_0_1_n_n.contr.Idx) :
    (dot_S10000x64_S64x128_S10000x128_1_0_0_1_n_n.rhsIdx i k 0).val = (k ⟨0, by decide⟩).val :=
  dot_S10000x64_S64x128_S10000x128_1_0_0_1_n_n.rhsIdx_val_of_single rfl i k
theorem blend_rhs_1 (i : S10000x128.Idx) (k : dot_S10000x64_S64x128_S10000x128_1_0_0_1_n_n.contr.Idx) :
    (dot_S10000x64_S64x128_S10000x128_1_0_0_1_n_n.rhsIdx i k 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-! ## The two products at an index -/

/-- The score of tile row `p` against token `t`: the tile times the transposed table, at `(p, t)`. -/
theorem score_at (v0 : FVec Ideal S10000x128 .f32) (v1 : FVec Ideal S64x128 .f32) (h : S64x128.Transposes [1, 0] S128x64)
    (p : Fin 10000) (t : Fin 64) :
    matmul dot_S10000x128_S128x64_S10000x64_1_0_0_1_n_n none v0 (transpose S128x64 [1, 0] v1 h) (constant S10000x64 .f32 0x00000000#32) (ix2 p t)
      = ∑ e : Fin 128, v0 (ix2 p e) * v1 (ix2 t e) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p t) ((contrEquiv1 dot_S10000x128_S128x64_S10000x64_1_0_0_1_n_n 128 rfl rfl).symm k) = ix2 p k := funext fun a => Fin.ext (by
    match a with
    | ⟨0, _⟩ => exact score_lhs_0 _ _
    | ⟨1, _⟩ => exact (score_lhs_1 _ _).trans hk)
  have er : dot_S10000x128_S128x64_S10000x64_1_0_0_1_n_n.rhsIdx (ix2 p t) ((contrEquiv1 dot_S10000x128_S128x64_S10000x64_1_0_0_1_n_n 128 rfl rfl).symm k) = ix2 k t := funext fun a => Fin.ext (by
    match a with
    | ⟨0, _⟩ => exact (score_rhs_0 _ _).trans hk
    | ⟨1, _⟩ => exact score_rhs_1 _ _)
  rw [el, er, transpose_ix2_apply]

/-- The weights times the table, at `(p, q)`. -/
theorem blend_at (w : FVec Ideal S10000x64 .f32) (v1 : FVec Ideal S64x128 .f32) (p : Fin 10000) (q : Fin 128) :
    matmul dot_S10000x64_S64x128_S10000x128_1_0_0_1_n_n none w v1 (constant S10000x128 .f32 0x00000000#32) (ix2 p q)
      = ∑ t : Fin 64, w (ix2 p t) * v1 (ix2 t q) := by
  simp only [matmul]
  rw [Ideal.matmul_constant_zero_apply, ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p q) ((contrEquiv1 dot_S10000x64_S64x128_S10000x128_1_0_0_1_n_n 64 rfl rfl).symm k) = ix2 p k := funext fun a => Fin.ext (by
    match a with
    | ⟨0, _⟩ => exact blend_lhs_0 _ _
    | ⟨1, _⟩ => exact (blend_lhs_1 _ _).trans hk)
  have er : dot_S10000x64_S64x128_S10000x128_1_0_0_1_n_n.rhsIdx (ix2 p q) ((contrEquiv1 dot_S10000x64_S64x128_S10000x128_1_0_0_1_n_n 64 rfl rfl).symm k) = ix2 k q := funext fun a => Fin.ext (by
    match a with
    | ⟨0, _⟩ => exact (blend_rhs_0 _ _).trans hk
    | ⟨1, _⟩ => exact blend_rhs_1 _ _)
  rw [el, er]

/-! ## The stored value -/

/-- What the body stores, at tile row `p` and column `q`, from the tile `v0` and the table `v1` it loaded. -/
theorem pay_at (v0 : Vec Ideal S10000x128 .f32) (v1 : Vec Ideal S64x128 .f32) (p : Fin 10000) (q : Fin 128) :
    k0_pay1 (F := Ideal) v0 v1 (ix2 p q) = mixAt (R := 10000) v0 v1 p q := by
  unfold k0_pay1 mixAt
  dsimp only
  rw [addf_apply, blend_at]
  refine congrArg (v0 (ix2 p q) + ·) (Finset.sum_congr rfl fun t _ => congrArg (· * v1 (ix2 t q)) ?_)
  rw [← score_at v0 v1 transposes_S64x128_p1_0_S128x64 p t]
  rfl

end Cert.KernelIdeal.BodyMix

end
-- ==== Proof.Tiles.lean ====
/-
  From tiles to the array: after the run the kernel's result array holds `Mix.mixAt` of the two argument arrays at
  every index.

  Grid point `t` (of 100) stages rows `10000·t … 10000·t + 9999` of `x` and the whole token table, and writes the body's
  stored value back to the same rows of the result. By row-locality the body's value on the tile is the whole-array
  function restricted to the tile; and every row `r` of the result lies in exactly the tile of point `r / 10000`, so the
  tiles cover the array.
-/
import proofs.«177166_j76192719831252_1_alg».proof.Proof.Gen.KernelIdeal.Value
import proofs.«177166_j76192719831252_1_alg».proof.Proof.BodyMix

noncomputable section

namespace Cert.KernelIdeal.Tiles

open Cert.KernelIdeal Cert.KernelIdeal.Gen Cert.KernelIdeal.Value
open Idealize.ShloMosaic Idealize.ShloMosaic.TcCoe Idealize.SL.Sem Idealize.ShloMosaic.ValueIdx Cert.Mix
open Idealize.ShloMosaic.Pipeline (Dat)

variable (m : (ℓ : Loc nD τ sig) → Buf (Elt Ideal) ℓ) (ρ : Dev nD → PrngReg)

/-- The result array as one function of the argument arrays. -/
abbrev whole (x : S1000000x128.Idx → Elt Ideal .f32) (tok : S64x128.Idx → Elt Ideal .f32) : S1000000x128.Idx → Elt Ideal .f32 :=
  fun i => mixAt (R := 1000000) x tok (i 0) (i 1)

theorem origin : (![0, 0] : Fin 2 → Nat) = fun _ => 0 := funext fun a => by fin_cases a <;> rfl

/-- The printed index maps over the grid: at point `t` the tile of `x` and the tile of the result are both block `t` of
    the rows and the one block of columns; the table's window is its one block throughout. -/
theorem idx_facts : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Row-locality at a tile: a tile `xb` that holds rows of `X` from row `r` on, and a table `tb` that is `TOK`, give at
    tile row `p` what the whole arrays give at row `r + p`. Stated over plain arrays. -/
theorem tile_row (X : S1000000x128.Idx → EReal) (xb : S10000x128.Idx → EReal) (TOK tb : S64x128.Idx → EReal)
    (p : Fin 10000) (q : Fin 128) (i : S1000000x128.Idx)
    (hx : ∀ e : Fin 128, xb (ix2 p e) = X (ix2 (i 0) e)) (ht : tb = TOK) (hq : i 1 = q) :
    mixAt (R := 10000) xb tb p q = mixAt (R := 1000000) X TOK (i 0) (i 1) := by
  subst ht
  rw [hq]
  exact mixAt_of_row xb X tb p (i 0) hx q

/-- WHAT POINT `t` WRITES BACK is tile `t` of the whole-array function of the argument arrays. -/
theorem flushed_eq (c : Dev nD) (t : Fin cfg0.N) :
    (dats m 0 c).flushed 2 t = ((cfg0.win 2).blk t).view.read (Elt Ideal) (whole (V m c main_arg0) (V m c main_arg1)) := by
  rw [flushed2]
  unfold out0_2
  rw [View.canon_unit_zero origin]
  simp only [View.ld_unit_zero (S := S10000x128) origin, View.ld_unit_zero (S := S64x128) origin]
  obtain ⟨e20, e21, e00, e01, e10, e11⟩ := idx_facts t
  funext j
  obtain ⟨p, q, rfl⟩ : ∃ (p : Fin 10000) (q : Fin 128), j = ix2 p q := ⟨j 0, j 1, eq_ix2 j⟩
  show k0_pay1 (F := Ideal) (iblk m c 0 t) (iblk m c 1 t) (ix2 p q)
    = mixAt (R := 1000000) (V m c main_arg0) (V m c main_arg1) ((((cfg0.win 2).blk t).view.emb (ix2 p q)) 0) ((((cfg0.win 2).blk t).view.emb (ix2 p q)) 1)
  refine (BodyMix.pay_at (iblk m c 0 t) (iblk m c 1 t) p q).trans ?_
  refine tile_row (V m c main_arg0) (iblk m c 0 t) (V m c main_arg1) (iblk m c 1 t) p q (((cfg0.win 2).blk t).view.emb (ix2 p q)) ?_ ?_ ?_
  · intro e
    show V m c main_arg0 (((cfg0.win 0).blk t).view.emb (ix2 p e)) = V m c main_arg0 _
    refine congrArg _ (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * e.val = e.val; omega
  · funext y
    show V m c main_arg1 (((cfg0.win 1).blk t).view.emb y) = V m c main_arg1 y
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 128 + 1 * (y 1).val = (y 1).val; omega
  · refine Fin.ext ?_
    show win0_2.index t (1 : Fin 2) * 128 + 1 * q.val = q.val
    omega

/-- An index of the array is in point `t`'s tile iff each coordinate is in the tile's range on its axis. -/
theorem mem_blk (t : Fin cfg0.N) (i : S1000000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- The tiles cover the array: row `r` is in the tile of point `r / 10000`. -/
theorem cover (i : S1000000x128.Idx) : ∃ t : Fin cfg0.N, (cfg0.win 2).flush t = true ∧ i ∈ ((cfg0.win 2).blk t).view.set := by
  have hi0 : (i 0).val < 1000000 := (i 0).isLt
  have hi1 : (i 1).val < 128 := (i 1).isLt
  let t : Fin cfg0.N := ⟨(i 0).val / 10000, by show (i 0).val / 10000 < 100; omega⟩
  obtain ⟨e20, e21, -⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE ARRAY after the run. -/
theorem final (c : Dev nD) :
    (dats m 0 c).arrAt 2 cfg0.N = whole (m ((c : Thread nD τ).loc main_arg0)) (m ((c : Thread nD τ).loc main_arg1)) :=
  (dats m 0 c).arrAt_eq_of_cover 2 (whole (V m c main_arg0) (V m c main_arg1)) (fun t _ => flushed_eq m c t) cover

/-- The kernel's run: the result array at the whole-array function of the arguments, the arguments unchanged. -/
theorem run : θ_run defs (onTc (τ := τ) (main (F := Ideal))) ⟨m, fun _ => 0, ρ⟩ fun r => ∀ c : Dev nD,
      r.2.mem ((c : Thread nD τ).loc main_v0) = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Tiles

end
-- ==== Proof.RefMix.lean ====
/-
  The reference's result, read one operation at a time, is `Mix.mixAt` of its two arguments at every index.

  The reference contracts `x` with `tok` over their second axes (the scores), takes one over one plus the exponential of
  the negated score (the logistic function, spelt out), zeroes it below the threshold, contracts the weights with `tok`
  over the token axis, and adds `x`. Read at row `n`, column `d`, each contraction is a finite sum over its one
  contracted coordinate, and the operands' indices are the pairs `(n, e)`, `(t, e)`, `(n, t)`, `(t, d)`.
-/
import proofs.«177166_j76192719831252_1_alg».proof.Proof.Gen.ReferenceIdeal.Read
import proofs.«177166_j76192719831252_1_alg».proof.Proof.Mix

noncomputable section

namespace Cert.ReferenceIdeal.RefMix

open Cert.ReferenceIdeal Cert.ReferenceIdeal.Gen Cert.ReferenceIdeal.Read
open Idealize.ShloMosaic Idealize.ShloMosaic.ValueIdx Cert.Mix

/-! ## The operands' indices, as coordinate pairs -/

/-- In the score at `(n, t)`, term `e` reads `x` at `(n, e)` … -/
theorem score_left (n : Fin 1000000) (t : Fin 64) (e : Fin 128) : lidx_main_v0 (ix2 n t) e = ix2 n e :=
  funext fun a => Fin.ext (by match a with | ⟨0, _⟩ => rfl | ⟨1, _⟩ => rfl)
/-- … and `tok` at `(t, e)`. -/
theorem score_right (n : Fin 1000000) (t : Fin 64) (e : Fin 128) : ridx_main_v0 (ix2 n t) e = ix2 t e :=
  funext fun a => Fin.ext (by match a with | ⟨0, _⟩ => rfl | ⟨1, _⟩ => rfl)
/-- In the weighted sum at `(n, d)`, term `t` reads the weights at `(n, t)` … -/
theorem sum_left (n : Fin 1000000) (d : Fin 128) (t : Fin 64) : lidx_main_v10 (ix2 n d) t = ix2 n t :=
  funext fun a => Fin.ext (by match a with | ⟨0, _⟩ => rfl | ⟨1, _⟩ => rfl)
/-- … and `tok` at `(t, d)`. -/
theorem sum_right (n : Fin 1000000) (d : Fin 128) (t : Fin 64) : ridx_main_v10 (ix2 n d) t = ix2 t d :=
  funext fun a => Fin.ext (by match a with | ⟨0, _⟩ => rfl | ⟨1, _⟩ => rfl)

/-! ## The weights, then the result -/

/-- The reference's masked weight at `(n, t)` is the weight of the score of row `n` against token `t`. -/
theorem weight_at (x0 : (⟨S1000000x128, .f32⟩ : BufTy).Contents (Elt Ideal)) (x1 : (⟨S64x128, .f32⟩ : BufTy).Contents (Elt Ideal))
    (n : Fin 1000000) (t : Fin 64) :
    val_main_v9 (F := Ideal) x0 x1 (ix2 n t) = weight (∑ e : Fin 128, x0 (ix2 n e) * x1 (ix2 t e)) := by
  rw [val_main_v9_apply, val_main_v8_apply, val_main_v7_apply, val_main_cst_1_apply, val_main_call0_v1_apply,
    val_main_call0_v0_apply, val_main_cst_2_apply, val_main_v6_apply, val_main_v5_apply, val_main_cst_0_apply,
    val_main_v4_apply, val_main_v3_apply, val_main_cst_apply, val_main_v2_apply, val_main_v1_apply, val_main_v0_apply]
  simp only [score_left, score_right]
  exact weight_spelled _

/-- The reference's result at `(n, d)`. -/
theorem result_at (x0 : (⟨S1000000x128, .f32⟩ : BufTy).Contents (Elt Ideal)) (x1 : (⟨S64x128, .f32⟩ : BufTy).Contents (Elt Ideal))
    (n : Fin 1000000) (d : Fin 128) :
    val_main_v11 (F := Ideal) x0 x1 (ix2 n d) = mixAt (R := 1000000) x0 x1 n d := by
  rw [val_main_v11_apply, val_main_v10_apply]
  simp only [sum_left, sum_right, weight_at]
  rfl

/-- The reference's result array, as one function of its arguments. -/
theorem result_eq (x0 : (⟨S1000000x128, .f32⟩ : BufTy).Contents (Elt Ideal)) (x1 : (⟨S64x128, .f32⟩ : BufTy).Contents (Elt Ideal)) :
    val_main_v11 (F := Ideal) x0 x1 = fun i => mixAt (R := 1000000) x0 x1 (i 0) (i 1) := by
  funext i
  obtain ⟨n, d, rfl⟩ : ∃ (n : Fin 1000000) (d : Fin 128), i = ix2 n d := ⟨i 0, i 1, eq_ix2 i⟩
  exact result_at x0 x1 n d

end Cert.ReferenceIdeal.RefMix

end
-- ==== Proof.lean ====
/-
  A tiled kernel against its untiled reference, over the extended reals.

  Both programs compute, for an array `x` of 1000000 rows of 128 numbers and a table `tok` of 64 rows of 128 numbers,

      out n d = x n d + ∑ t, weight (∑ e, x n e · tok t e) · tok t d,

  where `weight s` is the logistic function of `s`, set to zero where it lies below the threshold (the f32 number nearest
  0.2: the same word in both programs). The kernel walks the rows in 100 tiles of 10000; on a tile it multiplies by the
  transposed table, applies the logistic function as one operation, masks, multiplies by the table and adds the tile. The
  reference contracts the whole arrays, spelling the logistic function as `1 / (1 + e^(-s))`.

  The two agree because (i) that spelling IS the logistic function on the extended reals, infinities included; (ii) a
  matrix product into a zero accumulator and a contraction are the same finite sum, re-indexed; (iii) row `n` of the
  result depends on row `n` of `x` only, so a tile is computed from that tile alone, and the tiles cover the rows. No law
  that fails at an infinity is used, so the finiteness of the inputs is never opened.

  `Proof/Mix.lean` states the function and (i) and (iii); `Proof/RefMix.lean` reads the reference as it;
  `Proof/BodyMix.lean` reads the kernel's stored value on a tile as it, (ii); `Proof/Tiles.lean` goes from tiles to the array.
  The frames are the generated ones; the reference's frame is its run with the result dropped; nothing was rewritten in
  the idealization, so the kernel and its idealization differ in nothing that needs a statement.
-/
import proofs.«177166_j76192719831252_1_alg».proof.Defs
import proofs.«177166_j76192719831252_1_alg».proof.Proof.Gen.Kernel
import proofs.«177166_j76192719831252_1_alg».proof.Proof.Gen.Kernel.Skeleton
import proofs.«177166_j76192719831252_1_alg».proof.Proof.Gen.Kernel.Launch
import proofs.«177166_j76192719831252_1_alg».proof.Proof.Gen.Kernel.Points
import proofs.«177166_j76192719831252_1_alg».proof.Proof.Gen.Kernel.Frame
import proofs.«177166_j76192719831252_1_alg».proof.Proof.Gen.KernelIdeal
import proofs.«177166_j76192719831252_1_alg».proof.Proof.Gen.KernelIdeal.Skeleton
import proofs.«177166_j76192719831252_1_alg».proof.Proof.Gen.KernelIdeal.Launch
import proofs.«177166_j76192719831252_1_alg».proof.Proof.Gen.KernelIdeal.Points
import proofs.«177166_j76192719831252_1_alg».proof.Proof.Gen.KernelIdeal.Frame
import proofs.«177166_j76192719831252_1_alg».proof.Proof.Gen.ReferenceIdeal
import proofs.«177166_j76192719831252_1_alg».proof.Proof.Gen.Pre_finite_inputs
import proofs.«177166_j76192719831252_1_alg».proof.Proof.Gen.KernelIdeal.Value
import proofs.«177166_j76192719831252_1_alg».proof.Proof.Gen.ReferenceIdeal.Run
import proofs.«177166_j76192719831252_1_alg».proof.Proof.Gen.ReferenceIdeal.Read
import proofs.«177166_j76192719831252_1_alg».proof.Proof.Tiles
import proofs.«177166_j76192719831252_1_alg».proof.Proof.RefMix
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the one function of the
    arguments: the kernel's by tiles, the reference's operation by operation. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefMix.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
